-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S128x64x64x64 : Shape := ⟨4, ![128, 64, 64, 64]⟩
abbrev S_ : Shape := ⟨0, ![]⟩
abbrev S128x64 : Shape := ⟨2, ![128, 64]⟩
abbrev S128x64x64 : Shape := ⟨3, ![128, 64, 64]⟩
abbrev S8192x64 : Shape := ⟨2, ![8192, 64]⟩
abbrev S8192x64x64 : Shape := ⟨3, ![8192, 64, 64]⟩
abbrev S512x512 : Shape := ⟨2, ![512, 512]⟩
abbrev S512x2048 : Shape := ⟨2, ![512, 2048]⟩

abbrev nBuf : Space → Nat
  | .hbm => 21
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S128x64x64x64, .f32⟩
  | .hbm, ⟨4, _⟩ => ⟨S_, .f32⟩
  | .hbm, ⟨5, _⟩ => ⟨S128x64, .f32⟩
  | .hbm, ⟨6, _⟩ => ⟨S_, .f32⟩
  | .hbm, ⟨7, _⟩ => ⟨S128x64, .f32⟩
  | .hbm, ⟨8, _⟩ => ⟨S128x64, .f32⟩
  | .hbm, ⟨9, _⟩ => ⟨S_, .f32⟩
  | .hbm, ⟨10, _⟩ => ⟨S128x64, .f32⟩
  | .hbm, ⟨11, _⟩ => ⟨S128x64, .i1⟩
  | .hbm, ⟨12, _⟩ => ⟨S128x64x64, .i1⟩
  | .hbm, ⟨13, _⟩ => ⟨S8192x64, .i1⟩
  | .hbm, ⟨14, _⟩ => ⟨S8192x64x64, .i1⟩
  | .hbm, ⟨15, _⟩ => ⟨S8192x4096, .i1⟩
  | .hbm, ⟨16, _⟩ => ⟨S_, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .local _ .vmem, ⟨0, _⟩ => ⟨S512x512, .f32⟩
  | .local _ .vmem, ⟨1, _⟩ => ⟨S512x512, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S8192x4096_S128x64x64x64 : S8192x4096.ShapeCasts S128x64x64x64
  reducesTo_S128x64x64x64_S128x64_d1_3 : S128x64x64x64.ReducesTo [1, 3] S128x64
  h_S_ : 0 < S_.numel
  bcast_S_S128x64 : S_.BroadcastsInDim S128x64 (![] : Fin 0 → Fin S128x64.rank)
  bcast_S128x64_S128x64x64_0_2 : S128x64.BroadcastsInDim S128x64x64 (![0, 2] : Fin 2 → Fin S128x64x64.rank)
  shapeCasts_S128x64x64_S8192x64 : S128x64x64.ShapeCasts S8192x64
  bcast_S8192x64_S8192x64x64_0_1 : S8192x64.BroadcastsInDim S8192x64x64 (![0, 1] : Fin 2 → Fin S8192x64x64.rank)
  shapeCasts_S8192x64x64_S8192x4096 : S8192x64x64.ShapeCasts S8192x4096
  bcast_S_S8192x4096 : S_.BroadcastsInDim S8192x4096 (![] : Fin 0 → Fin S8192x4096.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .f32 = 32 ∨ (Rect.block (s := S8192x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x4096.size a
  hwx0_2 : ∀ i : grid0.Coords, EltTy.bits .f32 = 32 ∨ (Rect.block (s := S8192x4096) S512x2048.size (cc0_transform_2 i) (hinb0_2 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v11) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S128x64x64x64 : Shape := ⟨4, ![128, 64, 64, 64]⟩
abbrev S_ : Shape := ⟨0, ![]⟩
abbrev S128x64 : Shape := ⟨2, ![128, 64]⟩
abbrev S128x64x64 : Shape := ⟨3, ![128, 64, 64]⟩
abbrev S8192x64 : Shape := ⟨2, ![8192, 64]⟩
abbrev S8192x64x64 : Shape := ⟨3, ![8192, 64, 64]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S128x64x64x64, .f32⟩
  | .hbm, ⟨4, _⟩ => ⟨S_, .f32⟩
  | .hbm, ⟨5, _⟩ => ⟨S128x64, .f32⟩
  | .hbm, ⟨6, _⟩ => ⟨S_, .f32⟩
  | .hbm, ⟨7, _⟩ => ⟨S128x64, .f32⟩
  | .hbm, ⟨8, _⟩ => ⟨S128x64, .f32⟩
  | .hbm, ⟨9, _⟩ => ⟨S_, .f32⟩
  | .hbm, ⟨10, _⟩ => ⟨S128x64, .f32⟩
  | .hbm, ⟨11, _⟩ => ⟨S128x64, .i1⟩
  | .hbm, ⟨12, _⟩ => ⟨S128x64x64, .i1⟩
  | .hbm, ⟨13, _⟩ => ⟨S8192x64, .i1⟩
  | .hbm, ⟨14, _⟩ => ⟨S8192x64x64, .i1⟩
  | .hbm, ⟨15, _⟩ => ⟨S8192x4096, .i1⟩
  | .hbm, ⟨16, _⟩ => ⟨S_, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  shapeCasts_S8192x4096_S128x64x64x64 : S8192x4096.ShapeCasts S128x64x64x64
  reducesTo_S128x64x64x64_S128x64_d1_3 : S128x64x64x64.ReducesTo [1, 3] S128x64
  h_S_ : 0 < S_.numel
  bcast_S_S128x64 : S_.BroadcastsInDim S128x64 (![] : Fin 0 → Fin S128x64.rank)
  bcast_S128x64_S128x64x64_0_2 : S128x64.BroadcastsInDim S128x64x64 (![0, 2] : Fin 2 → Fin S128x64x64.rank)
  shapeCasts_S128x64x64_S8192x64 : S128x64x64.ShapeCasts S8192x64
  bcast_S8192x64_S8192x64x64_0_1 : S8192x64.BroadcastsInDim S8192x64x64 (![0, 1] : Fin 2 → Fin S8192x64x64.rank)
  shapeCasts_S8192x64x64_S8192x4096 : S8192x64x64.ShapeCasts S8192x4096
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one grid point leaves in the accumulator and in the output block, as a function of the point's two input
  blocks and of what the accumulator held before. The body does one thing at every point: it adds the product of
  the point's `x` block and `weight` block to the accumulator; at the first point of a run along the contraction
  axis it first clears the accumulator, and at the last it also copies the accumulator to the output block.
  So every case leaves the same payload `acc + x_blk · w_blk` (the kernel's second stored value), over the
  zero block where the run starts.
-/
import proofs.«143722_j82798379532751_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Blocked

open Cert.KernelIdeal Cert.KernelIdeal.Gen

variable {F : FTy → Type} [FloatOps F]

theorem hz : (![0, 0] : Fin 2 → Nat) = fun _ => 0 := funext fun a => by fin_cases a <;> rfl

/-- A point in the middle of a run: the accumulator ends at the payload over what it held. -/
theorem acc_mid (c : Dev nD) (i : grid0.Coords) (a3 : Memref sig .tc .vmem S512x512 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .f32) (h6 : a6.IsWhole) (hc0 : ¬cond0_0 i) (hc1 : ¬cond0_1 i)
    (x0 : Vec F S512x512 .f32) (x1 : Vec F S512x2048 .f32) (xs0 : Vec F S512x2048 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S512x2048) hz,
    View.ld_unit_zero (S := S512x512) hz]

/-- The last point of a run: the accumulator ends at the same payload, -/
theorem acc_last (c : Dev nD) (i : grid0.Coords) (a3 : Memref sig .tc .vmem S512x512 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .f32) (h6 : a6.IsWhole) (hc0 : ¬cond0_0 i) (hc1 : cond0_1 i)
    (x0 : Vec F S512x512 .f32) (x1 : Vec F S512x2048 .f32) (xs0 : Vec F S512x2048 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S512x2048) hz,
    View.ld_unit_zero (S := S512x512) hz]

/-- and the output block is the accumulator's copy: the same payload again. -/
theorem out_last (c : Dev nD) (i : grid0.Coords) (a3 : Memref sig .tc .vmem S512x512 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .f32) (h6 : a6.IsWhole) (hc0 : ¬cond0_0 i) (hc1 : cond0_1 i)
    (x0 : Vec F S512x512 .f32) (x1 : Vec F S512x2048 .f32) (xs0 : Vec F S512x2048 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz]
  simp only [View.readCov_unit_zero (S := S512x2048) _ hz, View.readAt_eq_ld, h3.read_unread, h4.read_unread,
    h6.read_unread, View.ld_unit_zero (S := S512x2048) hz, View.ld_unit_zero (S := S512x512) hz]

/-- The first point of a run: the accumulator is cleared, then ends at the payload over the zero block. -/
theorem acc_first (c : Dev nD) (i : grid0.Coords) (a3 : Memref sig .tc .vmem S512x512 .f32) (h3 : a3.IsWhole)
    (a4 : Memref sig .tc .vmem S512x2048 .f32) (h4 : a4.IsWhole) (a5 : Memref sig .tc .vmem S512x2048 .f32) (h5 : a5.IsWhole)
    (a6 : Memref sig .tc .vmem S512x2048 .f32) (h6 : a6.IsWhole) (hc0 : cond0_0 i) (hc1 : ¬cond0_1 i)
    (x0 : Vec F S512x512 .f32) (x1 : Vec F S512x2048 .f32) :
    sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x2048) hz]
  simp only [View.readCov_unit_zero (S := S512x2048) _ hz, View.readAt_eq_ld, h3.read_unread, h4.read_unread,
    View.ld_unit_zero (S := S512x2048) hz, View.ld_unit_zero (S := S512x512) hz]

end Cert.KernelIdeal.Blocked

end
-- ==== Proof.Addend.lean ====
/-
  One grid point's contribution, read at one entry. At the exact instance a change of float format is the identity
  and the matrix unit's product into a zero accumulator is the plain sum of products over the contraction index,
  so what a point stores in the accumulator, at row `r` and column `q` of the [512, 2048] block, is what the
  accumulator held there plus `∑ k < 512, x_blk[r, k] · w_blk[k, q]`. The cleared accumulator is zero everywhere.
-/
import proofs.«143722_j82798379532751_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Blocked

open Cert.KernelIdeal Cert.KernelIdeal.Gen

/-! The operand indices of the block product at output entry `i` and contraction index `q`: the left operand is read
at (row of `i`, `q`), the right at (`q`, column of `i`). -/

theorem lhs_row (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_contr (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_contr (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_col (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The block product into a zero accumulator, at entry (r, q): the sum over the 512 contraction indices. -/
theorem block_product_apply (a : FVec Ideal S512x512 .bf16) (b : FVec Ideal S512x2048 .bf16) (r : Fin 512) (q : Fin 2048) :
    matmul (F := Ideal) dot_S512x512_S512x2048_S512x2048_1_0_0_1_n_n none a b (constant (F := Ideal) S512x2048 .f32 0x00000000#32) (ix2 r q)
      = ∑ k : Fin 512, a (ix2 r k) * b (ix2 k q) := by
  simp only [matmul]
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 r q) ((ValueIdx.contrEquiv1 dot_S512x512_S512x2048_S512x2048_1_0_0_1_n_n 512 rfl rfl).symm k) = ix2 r k := funext fun a => Fin.ext (by
    match a with
    | ⟨0, _⟩ => exact lhs_row _ _
    | ⟨1, _⟩ => exact (lhs_contr _ _).trans hk)
  have er : dot_S512x512_S512x2048_S512x2048_1_0_0_1_n_n.rhsIdx (ix2 r q) ((ValueIdx.contrEquiv1 dot_S512x512_S512x2048_S512x2048_1_0_0_1_n_n 512 rfl rfl).symm k) = ix2 k q := funext fun a => Fin.ext (by
    match a with
    | ⟨0, _⟩ => exact (rhs_contr _ _).trans hk
    | ⟨1, _⟩ => exact rhs_col _ _)
  rw [el, er]

/-- What a point stores in the accumulator, at entry (r, q): the accumulator's entry plus the blocks' product there. -/
theorem payload_apply (x0 : Vec Ideal S512x512 .f32) (x1 : Vec Ideal S512x2048 .f32) (acc : Vec Ideal S512x2048 .f32)
    (r : Fin 512) (q : Fin 2048) :
    k0_pay2 (F := Ideal) x0 x1 acc (ix2 r q) = acc (ix2 r q) + ∑ k : Fin 512, x0 (ix2 r k) * x1 (ix2 k q) := by
  unfold k0_pay2
  rw [shapeCast_self, addf_apply, shapeCast_self, block_product_apply]
  rfl

/-- The cleared accumulator is zero at every entry. -/
theorem cleared_apply (i : S512x2048.Idx) : k0_pay1 (F := Ideal) i = 0 := by
  unfold k0_pay1
  rw [shapeCast_self]
  exact Ideal.ofBits_zero_f32

end Cert.KernelIdeal.Blocked

end
-- ==== Proof.Fold.lean ====
/-
  The accumulator along a run of the contraction axis. The grid's last axis (8 points) walks the contraction
  axis in blocks of 512; a run is the 8 consecutive points `8q, …, 8q + 7`. The accumulator is cleared at the run's
  first point and every point of the run adds its blocks' product, so after point `t` the accumulator holds, entry
  by entry, the sum of the addends of the points `8·(t / 8), …, t`. At the run's last point the output block is the
  accumulator's copy.
-/
import proofs.«143722_j82798379532751_1_alg».proof.Proof.Gen.KernelIdeal.Value
import proofs.«143722_j82798379532751_1_alg».proof.Proof.Pieces
import proofs.«143722_j82798379532751_1_alg».proof.Proof.Addend

noncomputable section

open Idealize.ShloMosaic Idealize.ShloMosaic.TcCoe Idealize.SL.Sem Idealize.ShloMosaic.ValueIdx

namespace Cert.KernelIdeal.Blocked

open Cert.KernelIdeal Cert.KernelIdeal.Gen

section AnyInstance

variable {F : FTy → Type} [FloatOps F]
variable (m : (ℓ : Loc nD τ sig) → Buf (Elt F) ℓ)

/-- The `x` block and the `weight` block the body is handed at point `t`, at their literal shapes. -/
abbrev xblk (c : Dev nD) (t : Fin cfg0.N) : Vec F S512x512 .f32 := iblk m c 0 t
abbrev wblk (c : Dev nD) (t : Fin cfg0.N) : Vec F S512x2048 .f32 := iblk m c 1 t

/-- At a run's first point the accumulator ends at the payload over the cleared accumulator, whatever it held. -/
theorem step_first (c : Dev nD) (n : ℕ) (hb : n < cfg0.N) (h0 : n % 8 = 0) (acc : Vec F S512x2048 .f32) :
    Value.scAt0_0 m c n hb acc = k0_pay2 (xblk m c ⟨n, hb⟩) (wblk m c ⟨n, hb⟩) k0_pay1 := by
  have h1 : ¬n % 8 = 7 := by omega
  unfold Value.scAt0_0
  rw [dif_pos h0, dif_neg h1]
  exact acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))

/-- At every other point of a run it ends at the payload over what the point before left. -/
theorem step_next (c : Dev nD) (n : ℕ) (hb : n < cfg0.N) (h0 : ¬n % 8 = 0) (acc : Vec F S512x2048 .f32) :
    Value.scAt0_0 m c n hb acc = k0_pay2 (xblk m c ⟨n, hb⟩) (wblk m c ⟨n, hb⟩) acc := by
  unfold Value.scAt0_0
  by_cases h1 : n % 8 = 7
  · rw [dif_neg h0, dif_pos h1]
    exact acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc
  · rw [dif_neg h0, dif_neg h1]
    exact acc_mid c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc

/-- At a run's last point the output block is what the accumulator ends at. -/
theorem out_eq_acc (c : Dev nD) (t : Fin cfg0.N) (h1 : t.val % 8 = 7) :
    (outsAt0 m c t.val t.isLt).1 = (outsAt0 m c t.val t.isLt).2 := by
  have h0 : ¬t.val % 8 = 0 := by omega
  rw [outsAt0_C m c t h0 h1]
  dsimp only
  exact (out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (acc_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm

end AnyInstance

section Exact

variable (m : (ℓ : Loc nD τ sig) → Buf (Elt Ideal) ℓ)

/-- A block entry's row and column. -/
abbrev row (y : S512x2048.Idx) : Fin 512 := y 0
abbrev col (y : S512x2048.Idx) : Fin 2048 := y 1

/-- Point `n`'s addend at a block entry: the product of its `x` block's row with its `weight` block's column
    (zero past the grid, where nothing reads it). -/
def addend (c : Dev nD) (n : ℕ) (y : S512x2048.Idx) : EReal :=
  if h : n < cfg0.N then ∑ k : Fin 512, xblk m c ⟨n, h⟩ (ix2 (row y) k) * wblk m c ⟨n, h⟩ (ix2 k (col y)) else 0

theorem payload_eq_addend (c : Dev nD) (n : ℕ) (hb : n < cfg0.N) (acc : Vec Ideal S512x2048 .f32) (y : S512x2048.Idx) :
    k0_pay2 (F := Ideal) (xblk m c ⟨n, hb⟩) (wblk m c ⟨n, hb⟩) acc y = acc y + addend m c n y := by
  have hy : y = ix2 (row y) (col y) := eq_ix2 y
  rw [hy, payload_apply]
  unfold addend
  rw [dif_pos hb]

/-- The accumulator after point `t` is, entry by entry, the sum of the addends of its run's points up to `t`. -/
theorem acc_eq_sum (c : Dev nD) (t : Fin cfg0.N) (y : S512x2048.Idx) :
    (outsAt0 m c t.val t.isLt).2 y = ∑ s ∈ Finset.range (t.val % 8 + 1), addend m c (8 * (t.val / 8) + s) y := by
  have hN : cfg0.N = 256 := N_0
  rw [Value.soutsAt0_0_eq m c t]
  refine (Pipeline.accAt_add_apply (ι := S512x2048.Idx) (β := EReal)
    (fun n h => Value.scAt0_0 m c n h (VS0_0.read (Elt Ideal) VS0_0.junk)) (Value.scAt0_0 m c) (fun _ => 0) (addend m c)
    (8 * (t.val / 8)) 7 ?_ ?_ (t.val % 8) (by omega) _ y).trans (zero_add _)
  · intro h i
    show Value.scAt0_0 m c (8 * (t.val / 8)) h _ i = 0 + addend m c (8 * (t.val / 8)) i
    rw [step_first m c _ h (by omega), payload_eq_addend, cleared_apply]
  · intro n h acc i hlo hhi
    show Value.scAt0_0 m c n h acc i = acc i + addend m c n i
    rw [step_next m c n h (by omega), payload_eq_addend]

end Exact

end Cert.KernelIdeal.Blocked

end
-- ==== Proof.Blocks.lean ====
/-
  Where the blocks lie. Grid point `t` (of 256 = 16 · 2 · 8, last axis fastest) has row tile `t / 16`, column tile
  `t / 8 % 2` and contraction block `t % 8`. The `x` window's block at `t` is rows `512·(t/16) …` and columns
  `512·(t%8) …` of the masked activations; the `weight` window's is rows `512·(t%8) …` and columns
  `2048·(t/8%2) …` of `weight`; the output window's is rows `512·(t/16) …` and columns `2048·(t/8%2) …` of the result.
-/
import proofs.«143722_j82798379532751_1_alg».proof.Proof.Fold

noncomputable section

open Idealize.ShloMosaic Idealize.ShloMosaic.TcCoe Idealize.SL.Sem Idealize.ShloMosaic.ValueIdx

namespace Cert.KernelIdeal.Blocked

open Cert.KernelIdeal Cert.KernelIdeal.Gen

/-- The three printed index maps in closed form, decided once over the grid. -/
theorem tile_of_point : ∀ t : Fin cfg0.N,
    win0_0.index t (0 : Fin 2) = t.val / 16 ∧ win0_0.index t (1 : Fin 2) = t.val % 8
    ∧ win0_1.index t (0 : Fin 2) = t.val % 8 ∧ win0_1.index t (1 : Fin 2) = t.val / 8 % 2
    ∧ win0_2.index t (0 : Fin 2) = t.val / 16 ∧ win0_2.index t (1 : Fin 2) = t.val / 8 % 2 :=
  (by decide +kernel : ∀ t : Fin grid0.N, _)

variable {F : FTy → Type} [FloatOps F]
variable (m : (ℓ : Loc nD τ sig) → Buf (Elt F) ℓ)

/-- The two arrays the region reads, as it finds them, at their literal shapes: the masked activations (written by
    the host operations before the region) and `weight`. -/
abbrev xarr (c : Dev nD) : Vec F S8192x4096 .f32 := V m c main_v11
abbrev warr (c : Dev nD) : Vec F S4096x4096 .f32 := V m c main_arg1

/-- Entry (r, k) of the `x` block at point `t` is entry (512·(t/16) + r, 512·(t%8) + k) of the masked activations. -/
theorem xblk_apply (c : Dev nD) (t : Fin cfg0.N) (r k : Fin 512) (R : Fin 8192) (K : Fin 4096)
    (hR : R.val = 512 * (t.val / 16) + r.val) (hK : K.val = 512 * (t.val % 8) + k.val) :
    xblk m c t (ix2 r k) = xarr m c (ix2 R K) := by
  obtain ⟨e0, e1, -, -, -, -⟩ := tile_of_point t
  show iblk m c 0 t (ix2 r k) = V m c main_v11 (ix2 R K)
  unfold iblk
  rw [View.read_apply]
  show V m c main_v11 _ = V m c main_v11 _
  congr 1
  funext a
  apply Fin.ext
  match a with
  | ⟨0, _⟩ => show win0_0.index t (0 : Fin 2) * 512 + 1 * r.val = R.val; omega
  | ⟨1, _⟩ => show win0_0.index t (1 : Fin 2) * 512 + 1 * k.val = K.val; omega

/-- Entry (k, q) of the `weight` block at point `t` is entry (512·(t%8) + k, 2048·(t/8%2) + q) of `weight`. -/
theorem wblk_apply (c : Dev nD) (t : Fin cfg0.N) (k : Fin 512) (q : Fin 2048) (K : Fin 4096) (C : Fin 4096)
    (hK : K.val = 512 * (t.val % 8) + k.val) (hC : C.val = 2048 * (t.val / 8 % 2) + q.val) :
    wblk m c t (ix2 k q) = warr m c (ix2 K C) := by
  obtain ⟨-, -, e2, e3, -, -⟩ := tile_of_point t
  show iblk m c 1 t (ix2 k q) = V m c main_arg1 (ix2 K C)
  unfold iblk
  rw [View.read_apply]
  show V m c main_arg1 _ = V m c main_arg1 _
  congr 1
  funext a
  apply Fin.ext
  match a with
  | ⟨0, _⟩ => show win0_1.index t (0 : Fin 2) * 512 + 1 * k.val = K.val; omega
  | ⟨1, _⟩ => show win0_1.index t (1 : Fin 2) * 2048 + 1 * q.val = C.val; omega

/-- An entry of the result array is in point `t`'s output block iff each coordinate is in the block's range. -/
theorem mem_out_block (t : Fin cfg0.N) (i : S8192x4096.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v12).slice (win0_2.rect t)).set ↔ _
  rw [View.set_slice_whole, Rect.mem_set_unit]
  exact Iff.rfl

end Cert.KernelIdeal.Blocked

end
-- ==== Proof.Masked.lean ====
/-
  The masked activations. Before the matrix product both programs run the same host operations on `x`: the mean
  of `|x|` over each 64 × 64 tile, the comparison of that mean with the threshold, the tile mask expanded back to
  [8192, 4096], and `x` kept where the mask is set, zero elsewhere. The product never looks inside this function:
  it is one name here, and the kernel's and the reference's are the same term.
-/
import proofs.«143722_j82798379532751_1_alg».proof.Proof.Gen.KernelIdeal.Frame
import proofs.«143722_j82798379532751_1_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.Blocked

open Cert.KernelIdeal Cert.KernelIdeal.Gen

variable {F : FTy → Type} [FloatOps F]

/-- `x` with every 64 × 64 tile whose mean magnitude is not above the threshold replaced by zeros. -/
def masked (x : (⟨S8192x4096, .f32⟩ : BufTy).Contents (Elt F)) : (⟨S8192x4096, .f32⟩ : BufTy).Contents (Elt F) :=
  select (shapeCast _ (broadcastInDim S8192x64x64 ![0, 1] bcast_S8192x64_S8192x64x64_0_1 (shapeCast _ (broadcastInDim S128x64x64 ![0, 2] bcast_S128x64_S128x64x64_0_2 (cmpf .ogt (Host.divf (Host.reduceAdd (shapeCast _ (Host.absf x) shapeCasts_S8192x4096_S128x64x64x64) (constant S_ .f32 0x00000000#32) reducesTo_S128x64x64x64_S128x64_d1_3 h_S_) (broadcastInDim S128x64 ![] bcast_S_S128x64 (constant S_ .f32 0x45800000#32))) (broadcastInDim S128x64 ![] bcast_S_S128x64 (constant S_ .f32 0x3F4CCCCD#32)))) shapeCasts_S128x64x64_S8192x64)) shapeCasts_S8192x64x64_S8192x4096) x (broadcastInDim S8192x4096 ![] bcast_S_S8192x4096 (id (constant S_ .f32 0x00000000#32)))

/-- It is the reference's masked activations: the two programs print the same operations. -/
theorem masked_eq_reference (x : (⟨S8192x4096, .f32⟩ : BufTy).Contents (Elt F)) :
    masked x = Cert.ReferenceIdeal.Read.val_main_v11 (F := F) x := rfl

variable (m : (ℓ : Loc nD τ sig) → Buf (Elt F) ℓ)

/-- What the kernel region finds in its first operand: the masked activations of the argument `x`. -/
theorem region_input (c : Dev nD) :
    (V m c main_v11 : (⟨S8192x4096, .f32⟩ : BufTy).Contents (Elt F)) = masked (m ((c : Thread nD τ).loc main_arg0)) := by
  dsimp only [V]
  simp only [hostOps0, hostOps0_1, List.flatten_cons, List.flatten_nil, List.append_nil, List.cons_append, List.nil_append]
  after_results
  rfl

end Cert.KernelIdeal.Blocked

end
-- ==== Proof.LibBlockedSum.lean ====
/-
  A sum over the first `n * b` naturals, regrouped into `n` consecutive blocks of `b` terms each. The law holds
  in every additive commutative monoid — it only re-associates —, so on the extended reals it needs no finiteness.
  This is the step between a contraction accumulated block by block along its axis and the same contraction
  taken whole.
-/
import Mathlib.Algebra.BigOperators.Group.Finset.Basic
import Mathlib.Algebra.BigOperators.Fin

namespace BlockedSum

open Finset

/-- `∑ K < n·b, a K = ∑ s < n, ∑ k < b, a (s·b + k)`: the terms in order, cut into `n` blocks of `b`. -/
theorem sum_range_mul {β : Type*} [AddCommMonoid β] (a : ℕ → β) (b : ℕ) :
    ∀ n : ℕ, ∑ K ∈ range (n * b), a K = ∑ s ∈ range n, ∑ k ∈ range b, a (s * b + k)
  | 0 => by simp
  | n + 1 => by
    rw [Nat.succ_mul, sum_range_add, sum_range_mul a b n, sum_range_succ]

/-- The same with both the whole sum and each block's sum indexed by `Fin`, the blocks still by `range`: the form in
    which a contraction over a literal extent `N = n·b` meets a fold over `n` grid points of blocks of width `b`. -/
theorem sum_fin_blocks {β : Type*} [AddCommMonoid β] (a : ℕ → β) (n b N : ℕ) (hN : N = n * b) :
    ∑ K : Fin N, a K.val = ∑ s ∈ range n, ∑ k : Fin b, a (s * b + k.val) := by
  subst hN
  rw [← Finset.sum_range (fun K => a K), sum_range_mul a b n]
  exact Finset.sum_congr rfl fun s _ => Finset.sum_range (fun k => a (s * b + k))

end BlockedSum
-- ==== Proof.Spec.lean ====
/-
  The result, as one function of two arrays: entry (R, C) of the product of an [8192, 4096] array `a` with a
  [4096, 4096] array `w` is `∑ K < 4096, a[R, K] · w[K, C]` on the extended reals. Cut along the contraction
  axis into 8 blocks of 512, the same entry is the sum over the blocks `s` of `∑ k < 512, a[R, 512 s + k] ·
  w[512 s + k, C]`: only a regrouping of the sum, so it holds whatever the entries are, infinite ones included.
-/
import proofs.«143722_j82798379532751_1_alg».proof.Proof.LibBlockedSum
import Idealize.ShloMosaic.Lib.ValueIdx

noncomputable section

open Idealize.ShloMosaic Idealize.ShloMosaic.ValueIdx

namespace BlockedProduct

abbrev SX : Shape := ⟨2, ![8192, 4096]⟩
abbrev SW : Shape := ⟨2, ![4096, 4096]⟩

/-- The whole product, entry by entry. -/
def whole (a : SX.Idx → EReal) (w : SW.Idx → EReal) : SX.Idx → EReal :=
  fun i => ∑ K : Fin 4096, a (ix2 (i 0 : Fin 8192) K) * w (ix2 K (i 1 : Fin 4096))

/-- The `K`-th product of entry (R, C), for any natural `K` (zero past the contraction axis). -/
def term (a : SX.Idx → EReal) (w : SW.Idx → EReal) (R : Fin 8192) (C : Fin 4096) (K : ℕ) : EReal :=
  if h : K < 4096 then a (ix2 R ⟨K, h⟩) * w (ix2 ⟨K, h⟩ C) else 0

theorem term_of_lt (a : SX.Idx → EReal) (w : SW.Idx → EReal) (R : Fin 8192) (C : Fin 4096) (K : Fin 4096) :
    term a w R C K.val = a (ix2 R K) * w (ix2 K C) := by
  unfold term
  rw [dif_pos K.isLt]

/-- Entry (R, C) of the whole product, block by block along the contraction axis. -/
theorem whole_eq_blocks (a : SX.Idx → EReal) (w : SW.Idx → EReal) (R : Fin 8192) (C : Fin 4096) :
    whole a w (ix2 R C) = ∑ s ∈ Finset.range 8, ∑ k : Fin 512, term a w R C (s * 512 + k.val) := by
  show ∑ K : Fin 4096, a (ix2 R K) * w (ix2 K C) = _
  rw [← BlockedSum.sum_fin_blocks (term a w R C) 8 512 4096 (by norm_num)]
  exact Finset.sum_congr rfl fun K _ => (term_of_lt a w R C K).symm

end BlockedProduct

end
-- ==== Proof.Final.lean ====
/-
  From blocks to the array. At the last point `t` of a run the output block written back is the accumulator, the sum
  of the run's eight addends; addend `s` is the part of the contraction over indices `512 s … 512 s + 511`, read from
  the masked activations at the block's rows and from `weight` at the block's columns. So the block written back is
  the block of the whole product, and since the blocks written back (one per row tile and column tile) cover the
  [8192, 4096] result, the result array ends holding the whole product.
-/
import proofs.«143722_j82798379532751_1_alg».proof.Proof.Blocks
import proofs.«143722_j82798379532751_1_alg».proof.Proof.Masked
import proofs.«143722_j82798379532751_1_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Blocked

open Cert.KernelIdeal Cert.KernelIdeal.Gen BlockedProduct

variable (m : (ℓ : Loc nD τ sig) → Buf (Elt Ideal) ℓ) (ρ : Dev nD → PrngReg)

/-- The whole product of the two arrays the region finds. -/
abbrev product (c : Dev nD) : S8192x4096.Idx → EReal := whole (xarr m c) (warr m c)

/-- Addend `s` of the run that ends at `t`, at block entry `y`, is block `s` of the contraction of entry (R, C) of the
    product, where (R, C) is where `y` lies in the result. -/
theorem addend_eq_block (c : Dev nD) (t : Fin cfg0.N) (h7 : t.val % 8 = 7) (y : S512x2048.Idx) (R : Fin 8192) (C : Fin 4096)
    (hR : R.val = 512 * (t.val / 16) + (row y).val) (hC : C.val = 2048 * (t.val / 8 % 2) + (col y).val) (s : ℕ) (hs : s < 8) :
    addend m c (8 * (t.val / 8) + s) y = ∑ k : Fin 512, term (xarr m c) (warr m c) R C (s * 512 + k.val) := by
  have hN : cfg0.N = 256 := N_0
  have ht := t.isLt
  have hn : 8 * (t.val / 8) + s < cfg0.N := by omega
  unfold addend
  rw [dif_pos hn]
  refine Finset.sum_congr rfl fun k _ => ?_
  have hk : s * 512 + k.val < 4096 := by have := k.isLt; omega
  have hkk := k.isLt
  rw [show s * 512 + k.val = (⟨s * 512 + k.val, hk⟩ : Fin 4096).val from rfl, term_of_lt,
    xblk_apply m c ⟨_, hn⟩ (row y) k R ⟨s * 512 + k.val, hk⟩ (by dsimp only; omega) (by dsimp only; omega),
    wblk_apply m c ⟨_, hn⟩ k (col y) ⟨s * 512 + k.val, hk⟩ C (by dsimp only; omega) (by dsimp only; omega)]

/-- What a run's last point writes back is its block of the whole product. -/
theorem flushed_eq (c : Dev nD) (t : Fin cfg0.N) (hf : (cfg0.win 2).flush t = true) :
    (dats m 0 c).flushed 2 t = ((cfg0.win 2).blk t).view.read (Elt Ideal) (product m c) := by
  have h7 : t.val % 8 = 7 := (flush0_2 t).mp hf
  have hN : cfg0.N = 256 := N_0
  have ht := t.isLt
  obtain ⟨-, -, -, -, e4, e5⟩ := tile_of_point t
  rw [Value.flushed2, out_eq_acc m c t h7]
  funext j
  rw [View.read_apply]
  have hj0 : (j 0).val < 512 := (j 0).isLt
  have hj1 : (j 1).val < 2048 := (j 1).isLt
  have hemb : ((cfg0.win 2).blk t).view.emb j
      = ix2 (⟨512 * (t.val / 16) + (j 0).val, by omega⟩ : Fin 8192) (⟨2048 * (t.val / 8 % 2) + (j 1).val, by omega⟩ : Fin 4096) := by
    funext a
    apply Fin.ext
    match a with
    | ⟨0, _⟩ => show win0_2.index t (0 : Fin 2) * 512 + 1 * (j 0).val = 512 * (t.val / 16) + (j 0).val; omega
    | ⟨1, _⟩ => show win0_2.index t (1 : Fin 2) * 2048 + 1 * (j 1).val = 2048 * (t.val / 8 % 2) + (j 1).val; omega
  rw [hemb]
  show (outsAt0 m c t.val t.isLt).2 j = whole (xarr m c) (warr m c) (ix2 _ _)
  rw [whole_eq_blocks, acc_eq_sum m c t j, h7]
  exact Finset.sum_congr rfl fun s hs => addend_eq_block m c t h7 j _ _ rfl rfl s (Finset.mem_range.mp hs)

/-- Every entry of the result lies in the block some run's last point writes back. -/
theorem covered (i : S8192x4096.Idx) :
    ∃ t : Fin cfg0.N, (cfg0.win 2).flush t = true ∧ i ∈ ((cfg0.win 2).blk t).view.set := by
  have hN : cfg0.N = 256 := N_0
  have h0 : (i 0).val < 8192 := (i 0).isLt
  have h1 : (i 1).val < 4096 := (i 1).isLt
  obtain ⟨t, ht⟩ : ∃ t : Fin cfg0.N, t.val = 16 * ((i 0).val / 512) + 8 * ((i 1).val / 2048) + 7 := ⟨⟨_, by omega⟩, rfl⟩
  obtain ⟨-, -, -, -, e4, e5⟩ := tile_of_point t
  refine ⟨t, (flush0_2 t).mpr (by omega), ?_⟩
  rw [mem_out_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The result array after the run is the whole product of the masked activations with `weight`. -/
theorem final (c : Dev nD) : (dats m 0 c).arrAt 2 cfg0.N = product m c :=
  (dats m 0 c).arrAt_eq_of_cover 2 (product m c) (flushed_eq m c) covered

/-- The kernel's run, read: the result at the whole product of the masked `x` with `weight`, the arguments unchanged. -/
theorem run : θ_run defs (onTc (τ := τ) (main (F := Ideal))) ⟨m, fun _ => 0, ρ⟩ fun r => ∀ c : Dev nD,
      r.2.mem ((c : Thread nD τ).loc main_v12)
        = whole (masked (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by
      show whole (V m c main_v11) (V m c main_arg1) = _
      rw [region_input m c, V_main_arg1 m c])), (h c).2⟩)
    (Value.run_blocks m ρ)

end Cert.KernelIdeal.Blocked

end
-- ==== Proof.Reference.lean ====
/-
  The reference's side. Its last operation is one matrix product of the masked activations with `weight`, which on
  the extended reals is, entry by entry, the sum over the contraction index of the products: the same function
  the kernel's result array ends holding.
-/
import proofs.«143722_j82798379532751_1_alg».proof.Proof.Gen.ReferenceIdeal.Read
import proofs.«143722_j82798379532751_1_alg».proof.Proof.Masked
import proofs.«143722_j82798379532751_1_alg».proof.Proof.Spec

noncomputable section

open Idealize.ShloMosaic Idealize.ShloMosaic.TcCoe Idealize.SL.Sem Idealize.ShloMosaic.ValueIdx

namespace Cert.ReferenceIdeal.Whole

open Cert.ReferenceIdeal Cert.ReferenceIdeal.Read BlockedProduct

/-- The reference's result is the whole product of the masked `x` with `weight`. -/
theorem result_eq (x : (⟨S8192x4096, .f32⟩ : BufTy).Contents (Elt Ideal)) (w : (⟨S4096x4096, .f32⟩ : BufTy).Contents (Elt Ideal)) :
    val_main_v12 (F := Ideal) x w = whole (Cert.KernelIdeal.Blocked.masked (F := Ideal) x) w := by
  funext i
  rw [val_main_v12_apply, Cert.KernelIdeal.Blocked.masked_eq_reference]
  unfold whole
  refine Finset.sum_congr rfl fun k _ => ?_
  have el : lidx_main_v12 i k = ix2 (i 0 : Fin 8192) k :=
    funext fun a => Fin.ext (by match a with | ⟨0, _⟩ => rfl | ⟨1, _⟩ => rfl)
  have er : ridx_main_v12 i k = ix2 k (i 1 : Fin 4096) :=
    funext fun a => Fin.ext (by match a with | ⟨0, _⟩ => rfl | ⟨1, _⟩ => rfl)
  rw [el, er]
  rfl

end Cert.ReferenceIdeal.Whole

end
-- ==== Proof.lean ====
/-
  Block-threshold masking followed by a matrix product, tiled, against the same masking followed by one whole product.

  Both programs first run the same host operations on `x` f32[8192, 4096]: the mean of `|x|` over each 64 × 64 tile is
  compared with the threshold and `x` is kept on the tiles above it, zero elsewhere. The kernel then multiplies the
  masked activations by `weight` f32[4096, 4096] on a 16 × 2 × 8 grid: at each point it adds the product of a
  [512, 512] block of activations and a [512, 2048] block of `weight` (both narrowed to bf16, which at the exact
  instance is the identity) to an f32 accumulator that is cleared at the first of the 8 points along the contraction
  axis and copied to the output block at the last. The reference takes one product of the whole arrays.

  On the extended reals each entry of either result is `∑ K < 4096, masked(x)[R, K] · weight[K, C]`; the kernel
  computes it as `∑ s < 8, ∑ k < 512` of the same terms at `K = 512 s + k`. The two differ only by how the sum is
  grouped, and addition of extended reals is associative and commutative, so they are equal whatever the entries
  are: the precondition (finite inputs) is not used. The ideal pass rewrote nothing, so `preserves` is `True`.
-/
import proofs.«143722_j82798379532751_1_alg».proof.Defs
import proofs.«143722_j82798379532751_1_alg».proof.Proof.Gen.Kernel
import proofs.«143722_j82798379532751_1_alg».proof.Proof.Gen.Kernel.Frame
import proofs.«143722_j82798379532751_1_alg».proof.Proof.Gen.KernelIdeal
import proofs.«143722_j82798379532751_1_alg».proof.Proof.Gen.KernelIdeal.Frame
import proofs.«143722_j82798379532751_1_alg».proof.Proof.Gen.KernelIdeal.Value
import proofs.«143722_j82798379532751_1_alg».proof.Proof.Gen.ReferenceIdeal
import proofs.«143722_j82798379532751_1_alg».proof.Proof.Gen.ReferenceIdeal.Run
import proofs.«143722_j82798379532751_1_alg».proof.Proof.Gen.ReferenceIdeal.Read
import proofs.«143722_j82798379532751_1_alg».proof.Proof.Gen.Pre_finite_inputs
import proofs.«143722_j82798379532751_1_alg».proof.Proof.Final
import proofs.«143722_j82798379532751_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the exact instance. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x` and `weight` both programs end with the whole product of the masked `x` with
    `weight` in their result arrays. -/
theorem algebraic : Cert.algebraic_KernelIdeal_ReferenceIdeal := by
  intro m ρ m' ρ' _ hagree
  refine ⟨fun c => BlockedProduct.whole (Cert.KernelIdeal.Blocked.masked (F := Ideal)
      (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.Blocked.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v12_eq]
  exact Cert.ReferenceIdeal.Whole.result_eq _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
